-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x7168 : Shape := ⟨3, ![4, 4096, 7168]⟩
abbrev S4096x7168 : Shape := ⟨2, ![4096, 7168]⟩
abbrev S7168 : Shape := ⟨1, ![7168]⟩
abbrev S_ : Shape := ⟨0, ![]⟩

class Facts : Prop where
  bcast_S_S4x4096x7168 : S_.BroadcastsInDim S4x4096x7168 (![] : Fin 0 → Fin S4x4096x7168.rank)
  reducesTo_S4x4096x7168_S_d0_1_2 : S4x4096x7168.ReducesTo [0, 1, 2] S_
  h_S_ : 0 < S_.numel
  bcast_S_S4096x7168 : S_.BroadcastsInDim S4096x7168 (![] : Fin 0 → Fin S4096x7168.rank)
  reducesTo_S4096x7168_S_d0_1 : S4096x7168.ReducesTo [0, 1] S_
  bcast_S_S7168 : S_.BroadcastsInDim S7168 (![] : Fin 0 → Fin S7168.rank)
  reducesTo_S7168_S_d0 : S7168.ReducesTo [0] S_

variable [Facts]

def fn {F : FTy → Type} [FloatOps F] (main_arg0 : FVec F S4x4096x7168 .f32) (main_arg1 : FVec F S4096x7168 .f32) (main_arg2 : FVec F S7168 .f32) : IVec S_ 1 :=
  let main_v0 : FVec F S4x4096x7168 .f32 := Host.absf main_arg0
  let main_cst : FVec F S_ .f32 := constant S_ .f32 0x7F800000#32
  let main_v1 : FVec F S4x4096x7168 .f32 := broadcastInDim S4x4096x7168 ![] bcast_S_S4x4096x7168 main_cst
  let main_v2 : IVec S4x4096x7168 1 := cmpf .olt main_v0 main_v1
  let main_c : IVec S_ 1 := constantI S_ 1 1#1
  let main_v3 : IVec S_ 1 := (fun x v => Host.reduce IntOp.andi x v reducesTo_S4x4096x7168_S_d0_1_2 h_S_) main_v2 main_c
  let main_v4 : FVec F S4096x7168 .f32 := Host.absf main_arg1
  let main_cst_0 : FVec F S_ .f32 := constant S_ .f32 0x7F800000#32
  let main_v5 : FVec F S4096x7168 .f32 := broadcastInDim S4096x7168 ![] bcast_S_S4096x7168 main_cst_0
  let main_v6 : IVec S4096x7168 1 := cmpf .olt main_v4 main_v5
  let main_c_1 : IVec S_ 1 := constantI S_ 1 1#1
  let main_v7 : IVec S_ 1 := (fun x v => Host.reduce IntOp.andi x v reducesTo_S4096x7168_S_d0_1 h_S_) main_v6 main_c_1
  let main_v8 : IVec S_ 1 := andi main_v3 main_v7
  let main_v9 : FVec F S7168 .f32 := Host.absf main_arg2
  let main_cst_2 : FVec F S_ .f32 := constant S_ .f32 0x7F800000#32
  let main_v10 : FVec F S7168 .f32 := broadcastInDim S7168 ![] bcast_S_S7168 main_cst_2
  let main_v11 : IVec S7168 1 := cmpf .olt main_v9 main_v10
  let main_c_3 : IVec S_ 1 := constantI S_ 1 1#1
  let main_v12 : IVec S_ 1 := (fun x v => Host.reduce IntOp.andi x v reducesTo_S7168_S_d0 h_S_) main_v11 main_c_3
  let main_v13 : IVec S_ 1 := andi main_v8 main_v12
  main_v13
-- ==== Kernel.lean ====
abbrev S4x4096x7168 : Shape := ⟨3, ![4, 4096, 7168]⟩
abbrev S4096x7168 : Shape := ⟨2, ![4096, 7168]⟩
abbrev S7168 : Shape := ⟨1, ![7168]⟩
abbrev S1x7168 : Shape := ⟨2, ![1, 7168]⟩
abbrev S4x64x7168 : Shape := ⟨3, ![4, 64, 7168]⟩
abbrev S64x7168 : Shape := ⟨2, ![64, 7168]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x7168, .f32⟩
  | .hbm, ⟨1, _⟩ => ⟨S4096x7168, .f32⟩
  | .hbm, ⟨2, _⟩ => ⟨S7168, .f32⟩
  | .hbm, ⟨3, _⟩ => ⟨S1x7168, .f32⟩
  | .hbm, ⟨4, _⟩ => ⟨S4096x7168, .f32⟩
  | .hbm, ⟨5, _⟩ => ⟨S4096x7168, .f32⟩
  | .local _ .vmem, ⟨0, _⟩ => ⟨S4x64x7168, .f32⟩
  | .local _ .vmem, ⟨1, _⟩ => ⟨S4x64x7168, .f32⟩
  | .local _ .vmem, ⟨2, _⟩ => ⟨S64x7168, .f32⟩
  | .local _ .vmem, ⟨3, _⟩ => ⟨S64x7168, .f32⟩
  | .local _ .vmem, ⟨4, _⟩ => ⟨S1x7168, .f32⟩
  | .local _ .vmem, ⟨5, _⟩ => ⟨S64x7168, .f32⟩
  | .local _ .vmem, ⟨6, _⟩ => ⟨S64x7168, .f32⟩
  | .local _ .vmem, ⟨7, _⟩ => ⟨S64x7168, .f32⟩
  | .local _ .vmem, ⟨8, _⟩ => ⟨S64x7168, .f32⟩
  | _, _ => ⟨S4x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S7168_S1x7168 : S7168.ShapeCasts S1x7168
  inb_S4x64x7168_S4x64x7168_0_0_0 : ∀ a, (![0, 0, 0] : Fin 3 → Nat) a + S4x64x7168.size a ≤ S4x64x7168.size a
  h_S4x64x7168 : 0 < S4x64x7168.numel
  reduces_S4x64x7168_S64x7168 : S4x64x7168.Reduces [0] S64x7168
  inb_S64x7168_S64x7168_0_0 : ∀ a, (![0, 0] : Fin 2 → Nat) a + S64x7168.size a ≤ S64x7168.size a
  h_S64x7168 : 0 < S64x7168.numel
  reduces_S64x7168_S64 : S64x7168.Reduces [1] S64
  shapeCasts_S64_S64x1 : S64.ShapeCasts S64x1
  inb_S1x7168_S1x7168_0_0 : ∀ a, (![0, 0] : Fin 2 → Nat) a + S1x7168.size a ≤ S1x7168.size a
  h_S1x7168 : 0 < S1x7168.numel
  shapeCasts_S1x7168_S1x7168 : S1x7168.ShapeCasts S1x7168
  broadcasts_S64x1_S64x7168 : S64x1.Broadcasts S64x7168
  broadcasts_S1x7168_S64x7168 : S1x7168.Broadcasts S64x7168
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x7168.size a ≤ S4x4096x7168.size a
  hwx0_0 : ∀ i : grid0.Coords, EltTy.bits .f32 = 32 ∨ (Rect.block (s := S4x4096x7168) S4x64x7168.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x7168.size a ≤ S4096x7168.size a
  hwx0_1 : ∀ i : grid0.Coords, EltTy.bits .f32 = 32 ∨ (Rect.block (s := S4096x7168) S64x7168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7168.size a ≤ S1x7168.size a
  hwx0_2 : ∀ i : grid0.Coords, EltTy.bits .f32 = 32 ∨ (Rect.block (s := S1x7168) S1x7168.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x7168.size a ≤ S4096x7168.size a
  hwx0_3 : ∀ i : grid0.Coords, EltTy.bits .f32 = 32 ∨ (Rect.block (s := S4096x7168) S64x7168.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x7168.size a ≤ S4096x7168.size a
  hwx0_4 : ∀ i : grid0.Coords, EltTy.bits .f32 = 32 ∨ (Rect.block (s := S4096x7168) S64x7168.size (cc0_transform_4 i) (hinb0_4 i)).WholeWords (EltTy.packing .f32)

variable [Facts₀]

abbrev win0_0 : Pipeline.Window sig grid0 :=
  Pipeline.Window.ofSpec (Memref.whole main_arg0) S4x64x7168.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x7168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x7168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x7168.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x7168.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x7168 : Shape := ⟨3, ![4, 4096, 7168]⟩
abbrev S4096x7168 : Shape := ⟨2, ![4096, 7168]⟩
abbrev S7168 : Shape := ⟨1, ![7168]⟩
abbrev S_ : Shape := ⟨0, ![]⟩
abbrev S4096 : Shape := ⟨1, ![4096]⟩
abbrev S4096x1 : Shape := ⟨2, ![4096, 1]⟩
abbrev S1x7168 : Shape := ⟨2, ![1, 7168]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x7168, .f32⟩
  | .hbm, ⟨1, _⟩ => ⟨S4096x7168, .f32⟩
  | .hbm, ⟨2, _⟩ => ⟨S7168, .f32⟩
  | .hbm, ⟨3, _⟩ => ⟨S_, .f32⟩
  | .hbm, ⟨4, _⟩ => ⟨S4096x7168, .f32⟩
  | .hbm, ⟨5, _⟩ => ⟨S4096x7168, .f32⟩
  | .hbm, ⟨6, _⟩ => ⟨S4096x7168, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x7168, .f32⟩
  | .hbm, ⟨18, _⟩ => ⟨S4096x7168, .f32⟩
  | .hbm, ⟨19, _⟩ => ⟨S1x7168, .f32⟩
  | .hbm, ⟨20, _⟩ => ⟨S4096x7168, .f32⟩
  | .hbm, ⟨21, _⟩ => ⟨S4096x7168, .f32⟩
  | _, _ => ⟨S4x4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x4096x7168_S4096x7168_d0 : S4x4096x7168.ReducesTo [0] S4096x7168
  h_S_ : 0 < S_.numel
  reducesTo_S4096x7168_S4096_d1 : S4096x7168.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x7168_0_1 : S4096x1.BroadcastsInDim S4096x7168 (![0, 1] : Fin 2 → Fin S4096x7168.rank)
  bcast_S7168_S1x7168_1 : S7168.BroadcastsInDim S1x7168 (![1] : Fin 1 → Fin S1x7168.rank)
  bcast_S1x7168_S4096x7168_0_1 : S1x7168.BroadcastsInDim S4096x7168 (![0, 1] : Fin 2 → Fin S4096x7168.rank)

variable [Facts₀]

class Facts : Prop extends Facts₀ where

variable [Facts]
-- ==== Proof.RmsSpec.lean ====
/-
  What the two programs compute, as functions of the three argument arrays over the extended reals.

  The arguments: `hs`, four partial results of shape [4096, 7168] stacked along a leading axis of extent 4;
  `res`, the residual of shape [4096, 7168]; `w`, the norm weight of length 7168.

  * the residual stream: entry (p, q) is the sum of the four partial results at (p, q) plus the residual there;
  * its RMS norm: entry (p, q) of the residual stream, times the reciprocal square root of
    (the sum over the row p of the squares of the residual stream, divided by 7168, plus epsilon), times w q.

  Both constants are kept as the f32 words the two programs share; neither is ever evaluated.
-/
import Idealize.ShloMosaic.PureOps.Ideal
import Idealize.ShloMosaic.Lib.ValueIdx

noncomputable section

open scoped BigOperators

namespace Cert.RmsSpec

open Idealize.ShloMosaic Idealize.ShloMosaic.ValueIdx

/-- The stacked partial results' index set, [4, 4096, 7168]. -/
abbrev HS : Shape := ⟨3, ![4, 4096, 7168]⟩
/-- A token-by-hidden array's index set, [4096, 7168]. -/
abbrev TH : Shape := ⟨2, ![4096, 7168]⟩
/-- The weight's index set, [7168]. -/
abbrev HW : Shape := ⟨1, ![7168]⟩

/-- The divisor of the mean: the f32 word of 7168. -/
abbrev hiddenWord : BitVec 32 := 0x45E00000#32
/-- Epsilon: the f32 word nearest to 1e-6. -/
abbrev epsWord : BitVec 32 := 0x358637BD#32

/-- Entry (p, q) of the residual stream: the four partial results added, plus the residual. -/
def residAt (hs : HS.Idx → EReal) (res : TH.Idx → EReal) (p : Fin 4096) (q : Fin 7168) : EReal :=
  (∑ k : Fin 4, hs (ix3 k p q)) + res (ix2 p q)

/-- The scale of row p: the reciprocal square root of the row's mean square plus epsilon. -/
def rowScale (hs : HS.Idx → EReal) (res : TH.Idx → EReal) (p : Fin 4096) : EReal :=
  Ideal.rsqrt (Ideal.div (∑ j : Fin 7168, residAt hs res p j * residAt hs res p j) (Ideal.ofBits .f32 hiddenWord)
    + Ideal.ofBits .f32 epsWord)

/-- Entry (p, q) of the normed output. -/
def normedAt (hs : HS.Idx → EReal) (res : TH.Idx → EReal) (w : HW.Idx → EReal) (p : Fin 4096) (q : Fin 7168) : EReal :=
  residAt hs res p q * rowScale hs res p * w (ix1 q)

/-- The residual stream as an array. -/
def resid (hs : HS.Idx → EReal) (res : TH.Idx → EReal) : TH.Idx → EReal :=
  fun i => residAt hs res (i 0) (i 1)

/-- The normed output as an array. -/
def normed (hs : HS.Idx → EReal) (res : TH.Idx → EReal) (w : HW.Idx → EReal) : TH.Idx → EReal :=
  fun i => normedAt hs res w (i 0) (i 1)

theorem resid_ix2 (hs : HS.Idx → EReal) (res : TH.Idx → EReal) (p : Fin 4096) (q : Fin 7168) :
    resid hs res (ix2 p q) = residAt hs res p q := rfl

theorem normed_ix2 (hs : HS.Idx → EReal) (res : TH.Idx → EReal) (w : HW.Idx → EReal) (p : Fin 4096) (q : Fin 7168) :
    normed hs res w (ix2 p q) = normedAt hs res w p q := rfl

/-- Row `p` of the `r`-th band of 64 rows: the kernel works on one band per grid point. -/
def bandRow (r : Nat) (hr : r < 64) (p : Fin 64) : Fin 4096 := ⟨r * 64 + p.val, by have := p.isLt; omega⟩

theorem bandRow_val (r : Nat) (hr : r < 64) (p : Fin 64) : (bandRow r hr p).val = r * 64 + p.val := rfl

end Cert.RmsSpec

end
-- ==== Proof.RefIsSpec.lean ====
/-
  The reference's two results are the specification's two arrays.

  Read one stage at a time, the reference's residual stream at (p, q) is "zero plus the sum over the leading axis" of the
  stacked partial results plus the residual, and its normed output at (p, q) is that entry times the reciprocal square root
  of (zero plus the row's sum of squares) divided by 7168 plus epsilon, times the weight at q. The leading zeros are the
  initial values of the two host sums; dropping them is the only arithmetic used, so nothing here needs finite inputs.
-/
import proofs.«161921_j56994216018564_1_alg».proof.Proof.Gen.ReferenceIdeal.Read
import proofs.«161921_j56994216018564_1_alg».proof.Proof.RmsSpec
import Idealize.ShloMosaic.PureOps.Ideal.Laws

noncomputable section

open scoped BigOperators

namespace Cert.ReferenceIdeal.RefValue

open Cert.ReferenceIdeal Cert.ReferenceIdeal.Read Cert.RmsSpec
open Idealize.ShloMosaic Idealize.ShloMosaic.ValueIdx

/-! ## Where each stage reads its operand, in coordinates -/

theorem at_stack (p : Fin 4096) (q : Fin 7168) (k : Fin 4) : idx_main_v0 (ix2 p q) k = ix3 k p q :=
  funext fun a => Fin.ext (by match a with | ⟨0, _⟩ => rfl | ⟨1, _⟩ => rfl | ⟨2, _⟩ => rfl)

theorem at_row (p : Fin 4096) (j : Fin 7168) : idx_main_v3 (ix1 p) j = ix2 p j :=
  funext fun a => Fin.ext (by match a with | ⟨0, _⟩ => rfl | ⟨1, _⟩ => rfl)

theorem at_col (p : Fin 4096) (q : Fin 7168) : idx_main_v10 (ix2 p q) = ix2 p (0 : Fin 1) :=
  funext fun a => Fin.ext (by match a with | ⟨0, _⟩ => rfl | ⟨1, _⟩ => rfl)

theorem at_sums (p : Fin 4096) : idx_main_v4 (ix2 p (0 : Fin 1)) = ix1 p :=
  funext fun a => Fin.ext (by match a with | ⟨0, _⟩ => rfl)

theorem at_weight (p : Fin 4096) (q : Fin 7168) : idx_main_v12 (idx_main_v13 (ix2 p q)) = ix1 q :=
  funext fun a => Fin.ext (by match a with | ⟨0, _⟩ => rfl)

/-! ## The residual stream -/

/-- The reference's residual stream at (p, q). -/
theorem stream_at (x0 : HS.Idx → EReal) (x1 : TH.Idx → EReal) (p : Fin 4096) (q : Fin 7168) :
    val_main_v1 (F := Ideal) x0 x1 (ix2 p q) = residAt x0 x1 p q := by
  rw [val_main_v1_apply, val_main_v0_apply, val_main_cst_apply]
  simp only [at_stack, Ideal.addf_def, Ideal.ofBits_def, Ideal.ofBits_zero_f32, zero_add]
  rfl

/-- The reference's second result is the residual stream. -/
theorem stream_eq (x0 : HS.Idx → EReal) (x1 : TH.Idx → EReal) :
    val_main_v1 (F := Ideal) x0 x1 = resid x0 x1 := by
  funext i
  obtain ⟨p, q, rfl⟩ : ∃ (p : Fin 4096) (q : Fin 7168), i = ix2 p q := ⟨i 0, i 1, eq_ix2 i⟩
  exact stream_at x0 x1 p q

/-! ## The normed output -/

/-- The reference's row scale, read at (p, 0) of its [4096, 1] column. -/
theorem scale_at (x0 : HS.Idx → EReal) (x1 : TH.Idx → EReal) (p : Fin 4096) :
    val_main_v9 (F := Ideal) x0 x1 (ix2 p (0 : Fin 1)) = rowScale x0 x1 p := by
  rw [val_main_v9_apply, val_main_v8_apply, val_main_v6_apply, val_main_v4_apply, val_main_v5_apply, val_main_v7_apply,
    val_main_cst_1_apply, val_main_cst_2_apply, at_sums, val_main_v3_apply, val_main_cst_0_apply]
  simp only [at_row, val_main_v2_apply, stream_at, Ideal.addf_def, Ideal.mulf_def, Ideal.hostDivf_def,
    Ideal.hostUnary_rsqrt_def, Ideal.ofBits_def, Ideal.ofBits_zero_f32, zero_add]
  rfl

/-- The reference's normed output at (p, q). -/
theorem normed_at (x0 : HS.Idx → EReal) (x1 : TH.Idx → EReal) (x2 : HW.Idx → EReal) (p : Fin 4096) (q : Fin 7168) :
    val_main_v14 (F := Ideal) x0 x1 x2 (ix2 p q) = normedAt x0 x1 x2 p q := by
  rw [val_main_v14_apply, val_main_v11_apply, val_main_v10_apply, val_main_v13_apply, val_main_v12_apply,
    at_col, at_weight, scale_at, stream_at]
  rfl

/-- The reference's first result is the normed output. -/
theorem normed_eq (x0 : HS.Idx → EReal) (x1 : TH.Idx → EReal) (x2 : HW.Idx → EReal) :
    val_main_v14 (F := Ideal) x0 x1 x2 = normed x0 x1 x2 := by
  funext i
  obtain ⟨p, q, rfl⟩ : ∃ (p : Fin 4096) (q : Fin 7168), i = ix2 p q := ⟨i 0, i 1, eq_ix2 i⟩
  exact normed_at x0 x1 x2 p q

end Cert.ReferenceIdeal.RefValue

end
-- ==== Proof.BandValue.lean ====
/-
  One band of the kernel's work, read entry by entry.

  At a grid point the kernel body holds a [4, 64, 7168] block of the stacked partial results, a [64, 7168] block of the
  residual and the [1, 7168] weight row. What it leaves for its two outputs is, entry (p, q) of the band:
  for the residual stream, the four partial results at (p, q) added, plus the residual there; for the normed output, that
  entry times the reciprocal square root of (the band row's sum of squares divided by 7168, plus epsilon), times the
  weight at q. When the three blocks are the matching rows of the whole arrays, these are the specification's entries
  at row `r * 64 + p`.
-/
import proofs.«161921_j56994216018564_1_alg».proof.Proof.Gen.KernelIdeal.Value
import proofs.«161921_j56994216018564_1_alg».proof.Proof.RmsSpec
import Idealize.ShloMosaic.PureOps.Ideal.Laws
import Idealize.ShloMosaic.Lib.ValueIdx

noncomputable section

open scoped BigOperators

namespace Cert.KernelIdeal.BandValue

open Cert.KernelIdeal Cert.KernelIdeal.Gen Cert.KernelIdeal.Value Cert.RmsSpec
open Idealize.ShloMosaic Idealize.ShloMosaic.ValueIdx

/-! ## The block indices the generated block function reads, in coordinates -/

theorem ix3_0_at (p : Fin 64) (q : Fin 7168) : ix3_0 (ix2 p q) = ix2 p q :=
  funext fun a => Fin.ext (by match a with | ⟨0, _⟩ => rfl | ⟨1, _⟩ => rfl)
theorem ix3_1_at (p : Fin 64) (q : Fin 7168) : ix3_1 (ix2 p q) = ix2 p q :=
  funext fun a => Fin.ext (by match a with | ⟨0, _⟩ => rfl | ⟨1, _⟩ => rfl)
theorem ix3_2_at (p : Fin 64) (q : Fin 7168) : ix3_2 (ix2 p q) = ix1 p :=
  funext fun a => Fin.ext (by match a with | ⟨0, _⟩ => rfl)
theorem ix3_3_at (p : Fin 64) (q : Fin 7168) : ix3_3 (ix2 p q) = ix2 (0 : Fin 1) q :=
  funext fun a => Fin.ext (by match a with | ⟨0, _⟩ => rfl | ⟨1, _⟩ => rfl)
theorem ix4_0_at (p : Fin 64) (q : Fin 7168) : ix4_0 (ix2 p q) = ix2 p q :=
  funext fun a => Fin.ext (by match a with | ⟨0, _⟩ => rfl | ⟨1, _⟩ => rfl)
theorem ix4_1_at (p : Fin 64) (q : Fin 7168) : ix4_1 (ix2 p q) = ix2 p q :=
  funext fun a => Fin.ext (by match a with | ⟨0, _⟩ => rfl | ⟨1, _⟩ => rfl)

/-! ## The two reductions as sums -/

/-- The reduction over the leading axis of a [4, 64, 7168] block, at (p, q): the four entries above (p, q) added. -/
theorem stackSum_at (P0 : Vec Ideal S4x64x7168 .f32) (p : Fin 64) (q : Fin 7168) :
    multiReduction (F := Ideal) .add [0] S64x7168 P0 0x00000000#32 reduces_S4x64x7168_S64x7168 (.inl rfl) rfl (ix2 p q)
      = ∑ k : Fin 4, P0 (ix3 k p q) := by
  refine (Ideal.multiReduction_add_single P0 0x00000000#32 reduces_S4x64x7168_S64x7168 (.inl rfl) rfl (ix2 p q)).trans ?_
  refine Finset.sum_congr rfl fun k _ => congrArg P0 (funext fun a => Fin.ext ?_)
  match a with | ⟨0, _⟩ => rfl | ⟨1, _⟩ => rfl | ⟨2, _⟩ => rfl

/-- The reduction along the rows of a [64, 7168] block, at p: the row's entries added. -/
theorem rowSum_at (X : Vec Ideal S64x7168 .f32) (p : Fin 64) :
    multiReduction (F := Ideal) .add [1] S64 X 0x00000000#32 reduces_S64x7168_S64 (.inl rfl) rfl (ix1 p)
      = ∑ j : Fin 7168, X (ix2 p j) := by
  refine (Ideal.multiReduction_add_single X 0x00000000#32 reduces_S64x7168_S64 (.inl rfl) rfl (ix1 p)).trans ?_
  refine Finset.sum_congr rfl fun j _ => congrArg X (funext fun a => Fin.ext ?_)
  match a with | ⟨0, _⟩ => rfl | ⟨1, _⟩ => rfl

/-! ## The band's two outputs entry by entry -/

/-- Entry (p, q) of the band's residual stream, from the point's blocks. -/
def bandResid (P0 : Vec Ideal S4x64x7168 .f32) (P1 : Vec Ideal S64x7168 .f32) (p : Fin 64) (q : Fin 7168) : EReal :=
  (∑ k : Fin 4, P0 (ix3 k p q)) + P1 (ix2 p q)

/-- What the body leaves for the residual stream, at (p, q). -/
theorem E4_at (P0 : Vec Ideal S4x64x7168 .f32) (P1 : Vec Ideal S64x7168 .f32) (p : Fin 64) (q : Fin 7168) :
    E4 P0 P1 (ix2 p q) = bandResid P0 P1 p q := by
  simp only [E4]
  rw [ix4_0_at, ix4_1_at, stackSum_at]
  rfl

/-- The band's residual stream squared, as the body forms it before summing along a row, at (p, j). -/
theorem square_at (P0 : Vec Ideal S4x64x7168 .f32) (P1 : Vec Ideal S64x7168 .f32) (p : Fin 64) (j : Fin 7168) :
    (mulf (addf (multiReduction (F := Ideal) .add [0] S64x7168 P0 0x00000000#32 reduces_S4x64x7168_S64x7168 (.inl rfl) rfl) P1)
        (addf (multiReduction (F := Ideal) .add [0] S64x7168 P0 0x00000000#32 reduces_S4x64x7168_S64x7168 (.inl rfl) rfl) P1))
      (ix2 p j) = bandResid P0 P1 p j * bandResid P0 P1 p j := by
  show FloatOps.mulf
      (FloatOps.addf (multiReduction (F := Ideal) .add [0] S64x7168 P0 0x00000000#32 reduces_S4x64x7168_S64x7168 (.inl rfl) rfl (ix2 p j)) (P1 (ix2 p j)))
      (FloatOps.addf (multiReduction (F := Ideal) .add [0] S64x7168 P0 0x00000000#32 reduces_S4x64x7168_S64x7168 (.inl rfl) rfl (ix2 p j)) (P1 (ix2 p j))) = _
  rw [stackSum_at]
  rfl

/-- What the body leaves for the normed output, at (p, q). -/
theorem E3_at (P0 : Vec Ideal S4x64x7168 .f32) (P1 : Vec Ideal S64x7168 .f32) (P2 : Vec Ideal S1x7168 .f32)
    (p : Fin 64) (q : Fin 7168) :
    E3 P0 P1 P2 (ix2 p q)
      = bandResid P0 P1 p q
        * Ideal.rsqrt (Ideal.div (∑ j : Fin 7168, bandResid P0 P1 p j * bandResid P0 P1 p j) (Ideal.ofBits .f32 hiddenWord)
            + Ideal.ofBits .f32 epsWord)
        * P2 (ix2 (0 : Fin 1) q) := by
  simp only [E3]
  rw [ix3_0_at, ix3_1_at, ix3_2_at, ix3_3_at, stackSum_at, rowSum_at,
    Finset.sum_congr rfl (fun j _ => square_at P0 P1 p j)]
  rfl

/-! ## The band against the whole arrays -/

/-- If the point's blocks are rows `r * 64 …` of the arrays, the band's residual stream is the specification's. -/
theorem bandResid_eq (A0 : HS.Idx → EReal) (A1 : TH.Idx → EReal) (r : Nat) (hr : r < 64)
    (P0 : Vec Ideal S4x64x7168 .f32) (P1 : Vec Ideal S64x7168 .f32)
    (h0 : ∀ (k : Fin 4) (p : Fin 64) (q : Fin 7168), P0 (ix3 k p q) = A0 (ix3 k (bandRow r hr p) q))
    (h1 : ∀ (p : Fin 64) (q : Fin 7168), P1 (ix2 p q) = A1 (ix2 (bandRow r hr p) q))
    (p : Fin 64) (q : Fin 7168) :
    bandResid P0 P1 p q = residAt A0 A1 (bandRow r hr p) q := by
  unfold bandResid residAt
  rw [h1]
  exact congrArg (· + _) (Finset.sum_congr rfl fun k _ => h0 k p q)

/-- … and so is the normed output, with the weight row the weight. -/
theorem bandNormed_eq (A0 : HS.Idx → EReal) (A1 : TH.Idx → EReal) (W : HW.Idx → EReal) (r : Nat) (hr : r < 64)
    (P0 : Vec Ideal S4x64x7168 .f32) (P1 : Vec Ideal S64x7168 .f32) (P2 : Vec Ideal S1x7168 .f32)
    (h0 : ∀ (k : Fin 4) (p : Fin 64) (q : Fin 7168), P0 (ix3 k p q) = A0 (ix3 k (bandRow r hr p) q))
    (h1 : ∀ (p : Fin 64) (q : Fin 7168), P1 (ix2 p q) = A1 (ix2 (bandRow r hr p) q))
    (h2 : ∀ q : Fin 7168, P2 (ix2 (0 : Fin 1) q) = W (ix1 q))
    (p : Fin 64) (q : Fin 7168) :
    E3 P0 P1 P2 (ix2 p q) = normedAt A0 A1 W (bandRow r hr p) q := by
  rw [E3_at, h2]
  simp only [bandResid_eq A0 A1 r hr P0 P1 h0 h1]
  rfl

end Cert.KernelIdeal.BandValue

end
-- ==== Proof.ArrayValue.lean ====
/-
  The kernel's two result arrays after the run are the specification's two arrays.

  The grid has 64 points; point t works on rows 64 t … 64 t + 63. Its three input blocks are those rows of the stacked
  partial results (all four slices) and of the residual, and the whole weight row (the weight reshaped to one row before
  the region); its two output blocks are the same rows of the two results. So what point t writes back is block t of
  the specification's arrays, and the 64 blocks cover all 4096 rows.
-/
import proofs.«161921_j56994216018564_1_alg».proof.Proof.Gen.KernelIdeal.Value
import proofs.«161921_j56994216018564_1_alg».proof.Proof.BandValue
import Idealize.ShloMosaic.Lib.Pipeline.Value
import Idealize.ShloMosaic.Lib.StableHlo.Run
import Idealize.ShloMosaic.Lib.ValueIdx

noncomputable section

open scoped BigOperators

namespace Cert.KernelIdeal.ArrayValue

open Cert.KernelIdeal Cert.KernelIdeal.Gen Cert.KernelIdeal.Value Cert.KernelIdeal.BandValue Cert.RmsSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- A grid point is one of 64. -/
theorem point_lt (t : Fin cfg0.N) : t.val < 64 := by
  have h := t.isLt
  have hN : cfg0.N = 64 := N_0
  omega

/-- Which block each window holds at point t: the stacked input and the residual move down the rows with t, as do the
    two outputs; the weight row stays. (Decided over the 64 points.) -/
theorem block_indices : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks as rows of the arrays -/

/-- The stacked block at point t: slice k, band row p, column q of the array. -/
theorem stack_block (c : Dev nD) (t : Fin cfg0.N) (k : Fin 4) (p : Fin 64) (q : Fin 7168) :
    (iblk m c 0 t : Vec Ideal S4x64x7168 .f32) (ix3 k p q)
      = (V m c main_arg0 : HS.Idx → EReal) (ix3 k (bandRow t.val (point_lt t) p) q) := by
  obtain ⟨e0, e1, e2, -⟩ := block_indices t
  unfold iblk
  rw [View.read_apply]
  show V m c main_arg0 (((cfg0.win 0).blk t).view.emb (ix3 k p q)) = V m c main_arg0 _
  refine congrArg (V m c main_arg0) (funext fun a => Fin.ext ?_)
  match a with
  | ⟨0, _⟩ => show win0_0.index t (0 : Fin 3) * 4 + 1 * k.val = k.val; omega
  | ⟨1, _⟩ => show win0_0.index t (1 : Fin 3) * 64 + 1 * p.val = t.val * 64 + p.val; omega
  | ⟨2, _⟩ => show win0_0.index t (2 : Fin 3) * 7168 + 1 * q.val = q.val; omega

/-- The residual block at point t: band row p, column q of the array. -/
theorem res_block (c : Dev nD) (t : Fin cfg0.N) (p : Fin 64) (q : Fin 7168) :
    (iblk m c 1 t : Vec Ideal S64x7168 .f32) (ix2 p q)
      = (V m c main_arg1 : TH.Idx → EReal) (ix2 (bandRow t.val (point_lt t) p) q) := by
  obtain ⟨-, -, -, e0, e1, -⟩ := block_indices t
  unfold iblk
  rw [View.read_apply]
  show V m c main_arg1 (((cfg0.win 1).blk t).view.emb (ix2 p q)) = V m c main_arg1 _
  refine congrArg (V m c main_arg1) (funext fun a => Fin.ext ?_)
  match a with
  | ⟨0, _⟩ => show win0_1.index t (0 : Fin 2) * 64 + 1 * p.val = t.val * 64 + p.val; omega
  | ⟨1, _⟩ => show win0_1.index t (1 : Fin 2) * 7168 + 1 * q.val = q.val; omega

/-- The one-row array the third window stages is the weight, reshaped before the region. -/
theorem weight_row (c : Dev nD) :
    (V m c main_v0 : S1x7168.Idx → EReal)
      = shapeCast S1x7168 (m ((c : Thread nD τ).loc main_arg2)) shapeCasts_S7168_S1x7168 := by
  dsimp only [V, hostOps0]
  after_results
  rfl

/-- The weight block at every point: column q of the weight. -/
theorem weight_block (c : Dev nD) (t : Fin cfg0.N) (q : Fin 7168) :
    (iblk m c 2 t : Vec Ideal S1x7168 .f32) (ix2 (0 : Fin 1) q)
      = (m ((c : Thread nD τ).loc main_arg2) : HW.Idx → EReal) (ix1 q) := by
  obtain ⟨-, -, -, -, -, e0, e1, -⟩ := block_indices t
  unfold iblk
  rw [View.read_apply]
  show V m c main_v0 (((cfg0.win 2).blk t).view.emb (ix2 (0 : Fin 1) q)) = _
  rw [weight_row]
  refine shapeCast_apply _ _ _ (ix1 q) ?_
  rw [Shape.rowMajor_val_one, Shape.rowMajor_val_two]
  show q.val = (win0_2.index t (0 : Fin 2) * 1 + 1 * 0) * 7168 + (win0_2.index t (1 : Fin 2) * 7168 + 1 * q.val)
  omega

/-! ## What a point writes back -/

/-- Block t of the second result's array read off a whole array G. -/
theorem stream_band (t : Fin cfg0.N) (G : TH.Idx → EReal) :
    (((cfg0.win 4).blk t).view.read (Elt Ideal) G : S64x7168.Idx → EReal)
      = fun y => G (ix2 (bandRow t.val (point_lt t) (y 0)) (y 1)) := by
  obtain ⟨-, -, -, -, -, -, -, -, -, e0, e1⟩ := block_indices t
  funext y
  rw [View.read_apply]
  show G (((cfg0.win 4).blk t).view.emb y) = G _
  refine congrArg G (funext fun a => Fin.ext ?_)
  match a with
  | ⟨0, _⟩ => show win0_4.index t (0 : Fin 2) * 64 + 1 * (y 0).val = t.val * 64 + (y 0).val; omega
  | ⟨1, _⟩ => show win0_4.index t (1 : Fin 2) * 7168 + 1 * (y 1).val = (y 1).val; omega

/-- Block t of the first result's array read off a whole array G. -/
theorem normed_band (t : Fin cfg0.N) (G : TH.Idx → EReal) :
    (((cfg0.win 3).blk t).view.read (Elt Ideal) G : S64x7168.Idx → EReal)
      = fun y => G (ix2 (bandRow t.val (point_lt t) (y 0)) (y 1)) := by
  obtain ⟨-, -, -, -, -, -, -, e0, e1, -⟩ := block_indices t
  funext y
  rw [View.read_apply]
  show G (((cfg0.win 3).blk t).view.emb y) = G _
  refine congrArg G (funext fun a => Fin.ext ?_)
  match a with
  | ⟨0, _⟩ => show win0_3.index t (0 : Fin 2) * 64 + 1 * (y 0).val = t.val * 64 + (y 0).val; omega
  | ⟨1, _⟩ => show win0_3.index t (1 : Fin 2) * 7168 + 1 * (y 1).val = (y 1).val; omega

/-- The body's residual-stream block at point t is the specification's band. -/
theorem stream_body (c : Dev nD) (t : Fin cfg0.N) :
    (View.canon (Val := Elt Ideal) [(⟨r0_1, k0_pay1 (F := Ideal) (iblk m c 0 t) (iblk m c 1 t)⟩ : View.Piece (Elt Ideal) S64x7168 .f32)] : Vec Ideal S64x7168 .f32)
      = fun y => resid (V m c main_arg0) (V m c main_arg1) (ix2 (bandRow t.val (point_lt t) (y 0)) (y 1)) := by
  funext y
  refine (canon4_eq (F := Ideal) (iblk m c 0 t) (iblk m c 1 t) y).trans ?_
  obtain ⟨p, q, rfl⟩ : ∃ (p : Fin 64) (q : Fin 7168), y = ix2 p q := ⟨y 0, y 1, eq_ix2 y⟩
  refine (E4_at (iblk m c 0 t) (iblk m c 1 t) p q).trans ?_
  exact bandResid_eq (V m c main_arg0) (V m c main_arg1) t.val (point_lt t) (iblk m c 0 t) (iblk m c 1 t)
    (stack_block m c t) (res_block m c t) p q

/-- The body's normed block at point t is the specification's band. -/
theorem normed_body (c : Dev nD) (t : Fin cfg0.N) :
    (View.canon (Val := Elt Ideal) [(⟨r0_1, k0_pay2 (F := Ideal) (iblk m c 0 t) (iblk m c 1 t) (iblk m c 2 t)⟩ : View.Piece (Elt Ideal) S64x7168 .f32)] : Vec Ideal S64x7168 .f32)
      = fun y => normed (V m c main_arg0) (V m c main_arg1) (m ((c : Thread nD τ).loc main_arg2))
          (ix2 (bandRow t.val (point_lt t) (y 0)) (y 1)) := by
  funext y
  refine (canon3_eq (F := Ideal) (iblk m c 0 t) (iblk m c 1 t) (iblk m c 2 t) y).trans ?_
  obtain ⟨p, q, rfl⟩ : ∃ (p : Fin 64) (q : Fin 7168), y = ix2 p q := ⟨y 0, y 1, eq_ix2 y⟩
  exact bandNormed_eq (V m c main_arg0) (V m c main_arg1) (m ((c : Thread nD τ).loc main_arg2)) t.val (point_lt t)
    (iblk m c 0 t) (iblk m c 1 t) (iblk m c 2 t) (stack_block m c t) (res_block m c t) (weight_block m c t) p q

/-- What point t writes back to the second result is block t of the residual stream. -/
theorem stream_flushed (c : Dev nD) (t : Fin cfg0.N) :
    (dats m 0 c).flushed 4 t
      = ((cfg0.win 4).blk t).view.read (Elt Ideal) (resid (V m c main_arg0) (V m c main_arg1)) := by
  rw [flushed4]
  unfold out0_4
  simp only [View.ld_unit_zero (S := S4x64x7168) zeros3, View.ld_unit_zero (S := S64x7168) zeros2]
  funext j
  exact (congrFun (stream_body m c t) j).trans (congrFun (stream_band t (resid (V m c main_arg0) (V m c main_arg1))) j).symm

/-- What point t writes back to the first result is block t of the normed output. -/
theorem normed_flushed (c : Dev nD) (t : Fin cfg0.N) :
    (dats m 0 c).flushed 3 t
      = ((cfg0.win 3).blk t).view.read (Elt Ideal)
          (normed (V m c main_arg0) (V m c main_arg1) (m ((c : Thread nD τ).loc main_arg2))) := by
  rw [flushed3]
  unfold out0_3
  simp only [View.ld_unit_zero (S := S4x64x7168) zeros3, View.ld_unit_zero (S := S64x7168) zeros2,
    View.ld_unit_zero (S := S1x7168) zeros2]
  funext j
  exact (congrFun (normed_body m c t) j).trans
    (congrFun (normed_band t (normed (V m c main_arg0) (V m c main_arg1) (m ((c : Thread nD τ).loc main_arg2)))) j).symm

/-! ## The 64 bands cover the rows -/

/-- An index of the second result's array is in point t's block iff its coordinates are in the block's ranges. -/
theorem mem_stream_blk (t : Fin cfg0.N) (i : S4096x7168.Idx) :
    i ∈ ((cfg0.win 4).blk t).view.set
      ↔ ∀ a : Fin 2, win0_4.index t a * S64x7168.size a ≤ (i a).val
          ∧ (i a).val < win0_4.index t a * S64x7168.size a + S64x7168.size a := by
  show i ∈ ((View.whole main_v1_1).slice (win0_4.rect t)).set ↔ _
  rw [View.set_slice_whole, Rect.mem_set_unit]
  exact Iff.rfl

/-- An index of the first result's array is in point t's block iff its coordinates are in the block's ranges. -/
theorem mem_normed_blk (t : Fin cfg0.N) (i : S4096x7168.Idx) :
    i ∈ ((cfg0.win 3).blk t).view.set
      ↔ ∀ a : Fin 2, win0_3.index t a * S64x7168.size a ≤ (i a).val
          ∧ (i a).val < win0_3.index t a * S64x7168.size a + S64x7168.size a := by
  show i ∈ ((View.whole main_v1_0).slice (win0_3.rect t)).set ↔ _
  rw [View.set_slice_whole, Rect.mem_set_unit]
  exact Iff.rfl

/-- Row r of either result lies in the block of the point `r / 64`. -/
theorem point_of_row (i : S4096x7168.Idx) : ∃ t : Fin cfg0.N, t.val = (i 0).val / 64 := by
  have hi0 : (i 0).val < 4096 := (i 0).isLt
  have hN : cfg0.N = 64 := N_0
  exact ⟨⟨(i 0).val / 64, by rw [hN]; omega⟩, rfl⟩

theorem stream_cover (i : S4096x7168.Idx) :
    ∃ t : Fin cfg0.N, (cfg0.win 4).flush t = true ∧ i ∈ ((cfg0.win 4).blk t).view.set := by
  have hi0 : (i 0).val < 4096 := (i 0).isLt
  have hi1 : (i 1).val < 7168 := (i 1).isLt
  obtain ⟨t, ht⟩ := point_of_row i
  obtain ⟨-, -, -, -, -, -, -, -, -, e0, e1⟩ := block_indices t
  refine ⟨t, flush0_4 t, ?_⟩
  rw [mem_stream_blk]
  intro a
  match a with
  | ⟨0, _⟩ =>
    show win0_4.index t (0 : Fin 2) * 64 ≤ (i 0).val ∧ (i 0).val < win0_4.index t (0 : Fin 2) * 64 + 64
    omega
  | ⟨1, _⟩ =>
    show win0_4.index t (1 : Fin 2) * 7168 ≤ (i 1).val ∧ (i 1).val < win0_4.index t (1 : Fin 2) * 7168 + 7168
    omega

theorem normed_cover (i : S4096x7168.Idx) :
    ∃ t : Fin cfg0.N, (cfg0.win 3).flush t = true ∧ i ∈ ((cfg0.win 3).blk t).view.set := by
  have hi0 : (i 0).val < 4096 := (i 0).isLt
  have hi1 : (i 1).val < 7168 := (i 1).isLt
  obtain ⟨t, ht⟩ := point_of_row i
  obtain ⟨-, -, -, -, -, -, -, e0, e1, -⟩ := block_indices t
  refine ⟨t, flush0_3 t, ?_⟩
  rw [mem_normed_blk]
  intro a
  match a with
  | ⟨0, _⟩ =>
    show win0_3.index t (0 : Fin 2) * 64 ≤ (i 0).val ∧ (i 0).val < win0_3.index t (0 : Fin 2) * 64 + 64
    omega
  | ⟨1, _⟩ =>
    show win0_3.index t (1 : Fin 2) * 7168 ≤ (i 1).val ∧ (i 1).val < win0_3.index t (1 : Fin 2) * 7168 + 7168
    omega

/-! ## The arrays after the run, and the run -/

/-- The second result's array ends holding the residual stream of the arguments. -/
theorem stream_final (c : Dev nD) :
    (dats m 0 c).arrAt 4 cfg0.N
      = resid (m ((c : Thread nD τ).loc main_arg0)) (m ((c : Thread nD τ).loc main_arg1)) := by
  have h := (dats m 0 c).arrAt_eq_of_cover 4 (resid (V m c main_arg0) (V m c main_arg1))
    (fun t _ => stream_flushed m c t) stream_cover
  rw [V_main_arg0, V_main_arg1] at h
  exact h

/-- The first result's array ends holding the normed output of the arguments. -/
theorem normed_final (c : Dev nD) :
    (dats m 0 c).arrAt 3 cfg0.N
      = normed (m ((c : Thread nD τ).loc main_arg0)) (m ((c : Thread nD τ).loc main_arg1))
          (m ((c : Thread nD τ).loc main_arg2)) := by
  have h := (dats m 0 c).arrAt_eq_of_cover 3
    (normed (V m c main_arg0) (V m c main_arg1) (m ((c : Thread nD τ).loc main_arg2)))
    (fun t _ => normed_flushed m c t) normed_cover
  rw [V_main_arg0, V_main_arg1] at h
  exact h

/-- The kernel's run, read: the two results at the specification's arrays of the arguments, the arguments unchanged. -/
theorem run : θ_run defs (onTc (τ := τ) (main (F := Ideal))) ⟨m, fun _ => 0, ρ⟩ fun r => ∀ c : Dev nD,
      r.2.mem ((c : Thread nD τ).loc main_v1_0)
        = normed (m ((c : Thread nD τ).loc main_arg0)) (m ((c : Thread nD τ).loc main_arg1))
            (m ((c : Thread nD τ).loc main_arg2))
      ∧ r.2.mem ((c : Thread nD τ).loc main_v1_1)
        = resid (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun r h c => ⟨(h c).1.trans (normed_final m c), (h c).2.1.trans (stream_final m c), (h c).2.2⟩)
    (run_blocks m ρ)

end Cert.KernelIdeal.ArrayValue

end
-- ==== Proof.lean ====
/-
  Fused all-reduce, residual add and RMS norm: a Pallas kernel over 64 bands of 64 rows against its jnp reference.

  Both programs compute, from four stacked partial results `hs`, a residual `res` and a weight `w`,
    residual stream  s(p, q) = hs(0, p, q) + hs(1, p, q) + hs(2, p, q) + hs(3, p, q) + res(p, q)
    normed output    n(p, q) = s(p, q) · rsqrt((Σ_j s(p, j)²) / 7168 + ε) · w(q)
  with the same f32 words for 7168 and ε, the same order of the two products, and a true quotient by 7168 on both sides.
  The kernel's sums carry no initial value and the reference's start from zero, so over the extended reals the two
  sides agree entry by entry with no use of the inputs' finiteness: the only law used is 0 + x = x.

  Modules: RmsSpec (the two arrays as functions of the arguments), RefIsSpec (the reference's results are those arrays),
  BandValue (one band of the kernel's work, entry by entry), ArrayValue (the kernel's result arrays after the run).
  The idealization rewrote nothing, so `preserves` holds trivially; the frames of the two kernels are the generated
  ones, and the reference's frame is its run with the results dropped.
-/
import proofs.«161921_j56994216018564_1_alg».proof.Defs
import proofs.«161921_j56994216018564_1_alg».proof.Proof.Gen.Kernel
import proofs.«161921_j56994216018564_1_alg».proof.Proof.Gen.Kernel.Skeleton
import proofs.«161921_j56994216018564_1_alg».proof.Proof.Gen.Kernel.Launch
import proofs.«161921_j56994216018564_1_alg».proof.Proof.Gen.Kernel.Points
import proofs.«161921_j56994216018564_1_alg».proof.Proof.Gen.Kernel.Frame
import proofs.«161921_j56994216018564_1_alg».proof.Proof.Gen.KernelIdeal
import proofs.«161921_j56994216018564_1_alg».proof.Proof.Gen.KernelIdeal.Skeleton
import proofs.«161921_j56994216018564_1_alg».proof.Proof.Gen.KernelIdeal.Launch
import proofs.«161921_j56994216018564_1_alg».proof.Proof.Gen.KernelIdeal.Points
import proofs.«161921_j56994216018564_1_alg».proof.Proof.Gen.KernelIdeal.Frame
import proofs.«161921_j56994216018564_1_alg».proof.Proof.Gen.ReferenceIdeal
import proofs.«161921_j56994216018564_1_alg».proof.Proof.Gen.Pre_finite_inputs
import proofs.«161921_j56994216018564_1_alg».proof.Proof.Gen.KernelIdeal.Value
import proofs.«161921_j56994216018564_1_alg».proof.Proof.Gen.ReferenceIdeal.Run
import proofs.«161921_j56994216018564_1_alg».proof.Proof.Gen.ReferenceIdeal.Read
import proofs.«161921_j56994216018564_1_alg».proof.Proof.RmsSpec
import proofs.«161921_j56994216018564_1_alg».proof.Proof.RefIsSpec
import proofs.«161921_j56994216018564_1_alg».proof.Proof.ArrayValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference runs and keeps its arguments: its run, with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- From memories that agree on the three arguments, the kernel's two result arrays and the reference's two results
    are the same two arrays: the normed output and the residual stream of the arguments. -/
theorem algebraic : Cert.algebraic_KernelIdeal_ReferenceIdeal := by
  intro m ρ m' ρ' _ hagree
  refine ⟨fun c => Cert.RmsSpec.normed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.RmsSpec.resid (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ?_)
    (Cert.ReferenceIdeal.Value.run (F := Ideal) m' ρ')
  refine ⟨(h c).1.trans ?_, (h c).2.1.trans ?_, (h c).2.2⟩
  · rw [Cert.ReferenceIdeal.Read.val_main_v14_eq, Cert.ReferenceIdeal.RefValue.normed_eq,
      (hagree c).1, (hagree c).2.1, (hagree c).2.2]
  · rw [Cert.ReferenceIdeal.Read.val_main_v1_eq, Cert.ReferenceIdeal.RefValue.stream_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
